-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x8000000 : Shape := ⟨2, ![2, 8000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S500000x128 .f32) (main_arg1 : IVec S2x8000000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S500000x128 : Shape := ⟨2, ![500000, 128]⟩
abbrev S2x8000000 : Shape := ⟨2, ![2, 8000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S500000x64 : Shape := ⟨2, ![500000, 64]⟩
abbrev S10000x128 : Shape := ⟨2, ![10000, 128]⟩
abbrev S10000x64 : Shape := ⟨2, ![10000, 64]⟩
abbrev S10000 : Shape := ⟨1, ![10000]⟩
abbrev S10000x1 : Shape := ⟨2, ![10000, 1]⟩

abbrev nBuf : Space → Nat
  | .hbm => 15
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S2x8000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x128, .bf16⟩
  | .hbm, ⟨9, _⟩ => ⟨S128x128, .bf16⟩
  | .hbm, ⟨10, _⟩ => ⟨S128x64, .bf16⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S500000x64, .f32⟩
  | .local _ .vmem, ⟨0, _⟩ => ⟨S10000x128, .f32⟩
  | .local _ .vmem, ⟨1, _⟩ => ⟨S10000x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S500000x64.size a
  hwx0_7 : ∀ i : grid0.Coords, EltTy.bits .f32 = 32 ∨ (Rect.block (s := S500000x64) S10000x64.size (cc0_transform_7 i) (hinb0_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S2x8000000 : Shape := ⟨2, ![2, 8000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S500000x64 : Shape := ⟨2, ![500000, 64]⟩
abbrev S1x64 : Shape := ⟨2, ![1, 64]⟩
abbrev S500000 : Shape := ⟨1, ![500000]⟩
abbrev S500000x1 : Shape := ⟨2, ![500000, 1]⟩

abbrev nBuf : Space → Nat
  | .hbm => 53
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x8000000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S500000x128, .f32⟩
  | .hbm, ⟨9, _⟩ => ⟨S1x128, .f32⟩
  | .hbm, ⟨10, _⟩ => ⟨S500000x128, .f32⟩
  | .hbm, ⟨11, _⟩ => ⟨S500000x128, .f32⟩
  | .hbm, ⟨12, _⟩ => ⟨S500000x128, .f32⟩
  | .hbm, ⟨13, _⟩ => ⟨S500000x128, .f32⟩
  | .hbm, ⟨14, _⟩ => ⟨S_, .f32⟩
  | .hbm, ⟨15, _⟩ => ⟨S500000x128, .f32⟩
  | .hbm, ⟨16, _⟩ => ⟨S500000x128, .f32⟩
  | .hbm, ⟨17, _⟩ => ⟨S_, .f32⟩
  | .hbm, ⟨18, _⟩ => ⟨S500000x128, .f32⟩
  | .hbm, ⟨19, _⟩ => ⟨S500000x128, .f32⟩
  | .hbm, ⟨20, _⟩ => ⟨S500000x128, .f32⟩
  | .hbm, ⟨21, _⟩ => ⟨S500000x128, .f32⟩
  | .hbm, ⟨22, _⟩ => ⟨S1x128, .f32⟩
  | .hbm, ⟨23, _⟩ => ⟨S500000x128, .f32⟩
  | .hbm, ⟨24, _⟩ => ⟨S500000x128, .f32⟩
  | .hbm, ⟨25, _⟩ => ⟨S500000x128, .f32⟩
  | .hbm, ⟨26, _⟩ => ⟨S500000x128, .f32⟩
  | .hbm, ⟨27, _⟩ => ⟨S_, .f32⟩
  | .hbm, ⟨28, _⟩ => ⟨S500000x128, .f32⟩
  | .hbm, ⟨29, _⟩ => ⟨S500000x128, .f32⟩
  | .hbm, ⟨30, _⟩ => ⟨S_, .f32⟩
  | .hbm, ⟨31, _⟩ => ⟨S500000x128, .f32⟩
  | .hbm, ⟨32, _⟩ => ⟨S500000x128, .f32⟩
  | .hbm, ⟨33, _⟩ => ⟨S500000x128, .f32⟩
  | .hbm, ⟨34, _⟩ => ⟨S500000x64, .f32⟩
  | .hbm, ⟨35, _⟩ => ⟨S1x64, .f32⟩
  | .hbm, ⟨36, _⟩ => ⟨S500000x64, .f32⟩
  | .hbm, ⟨37, _⟩ => ⟨S500000x64, .f32⟩
  | .hbm, ⟨38, _⟩ => ⟨S_, .f32⟩
  | .hbm, ⟨39, _⟩ => ⟨S500000, .f32⟩
  | .hbm, ⟨40, _⟩ => ⟨S_, .f32⟩
  | .hbm, ⟨41, _⟩ => ⟨S500000, .f32⟩
  | .hbm, ⟨42, _⟩ => ⟨S500000, .f32⟩
  | .hbm, ⟨43, _⟩ => ⟨S500000x1, .f32⟩
  | .hbm, ⟨44, _⟩ => ⟨S500000x64, .f32⟩
  | .hbm, ⟨45, _⟩ => ⟨S500000x64, .f32⟩
  | .hbm, ⟨46, _⟩ => ⟨S500000x64, .f32⟩
  | .hbm, ⟨47, _⟩ => ⟨S_, .f32⟩
  | .hbm, ⟨48, _⟩ => ⟨S500000, .f32⟩
  | .hbm, ⟨49, _⟩ => ⟨S500000x1, .f32⟩
  | .hbm, ⟨50, _⟩ => ⟨S500000x1, .f32⟩
  | .hbm, ⟨51, _⟩ => ⟨S500000x64, .f32⟩
  | .hbm, ⟨52, _⟩ => ⟨S500000x64, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_call0_cst_0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_cst_1 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_v26 : Ref sig .tc := ⟨.hbm, 52, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  reducesTo_S500000x64_S500000_d1 : S500000x64.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  dot_S500000x128_S128x128_S500000x128_1_0_0_1_n_n_wf : DotDims.WF S500000x128 S128x128 S500000x128 [1] [0] [0] [1] [] []
  dot_S500000x128_S128x64_S500000x64_1_0_0_1_n_n_wf : DotDims.WF S500000x128 S128x64 S500000x64 [1] [0] [0] [1] [] []

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf

class Facts : Prop extends Facts₀ where

variable [Facts]
-- ==== Proof.Mlp.lean ====
/-
  The network, one row at a time, over the extended reals.

  A node's 128 features pass through three dense layers `a ↦ a · W + b`; after each of the first two comes
  SiLU, `h ↦ h · σ(h)` with `σ(h) = 1 / (1 + e^(-h))`; the 64 logits of the last layer are normalised by
  `log_softmax`: with `μ` the largest logit, `z_j = h_j - μ` and the result is `z_j - log (∑_q e^(z_q))`.
  Row `r` of the result depends on row `r` of the input and on the weights only, so the whole result array is
  `row` applied to every row of the input: `net`.
-/
import Idealize.ShloMosaic.PureOps.Ideal
import Idealize.ShloMosaic.Lib.ValueIdx

noncomputable section

namespace Cert.Mlp

open Idealize.ShloMosaic Idealize.ShloMosaic.ValueIdx

/-- One dense layer on one row: entry `j` is `∑_k a_k · W_{k j} + b_j`. -/
def dense {K J : ℕ} (a : Fin K → EReal) (W : Fin K → Fin J → EReal) (b : Fin J → EReal) (j : Fin J) : EReal :=
  (∑ k : Fin K, a k * W k j) + b j

/-- SiLU: `h · σ(h)`, the logistic function `σ(h) = 1 / (1 + e^(-h))`. -/
def silu (h : EReal) : EReal := h * Ideal.logistic h

/-- The largest entry of a row, taken from `-∞`. -/
def rowMax {J : ℕ} (h : Fin J → EReal) : EReal := (Finset.univ : Finset (Fin J)).fold max ⊥ h

/-- `log_softmax` of a row: the entries shifted by the row's maximum, less the logarithm of the sum of their exponentials. -/
def logSoftmax {J : ℕ} (h : Fin J → EReal) (j : Fin J) : EReal :=
  (h j - rowMax h) - Ideal.log (∑ q : Fin J, Ideal.exp (h q - rowMax h))

/-- The network on one row of features. -/
def row (a : Fin 128 → EReal) (W0 : Fin 128 → Fin 128 → EReal) (b0 : Fin 128 → EReal)
    (W1 : Fin 128 → Fin 128 → EReal) (b1 : Fin 128 → EReal) (W2 : Fin 128 → Fin 64 → EReal) (b2 : Fin 64 → EReal) :
    Fin 64 → EReal :=
  logSoftmax (dense (fun k => silu (dense (fun k' => silu (dense a W0 b0 k')) W1 b1 k)) W2 b2)

/-- The network on the whole input: row `r` of the result is `row` of row `r` of `x`. -/
def net (x : FVec Ideal ⟨2, ![500000, 128]⟩ .f32) (W0 : FVec Ideal ⟨2, ![128, 128]⟩ .f32) (b0 : FVec Ideal ⟨1, ![128]⟩ .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) : FVec Ideal ⟨2, ![500000, 64]⟩ .f32 :=
  fun i => row (fun k => x (ix2 (i 0) k)) (fun k j => W0 (ix2 k j)) (fun j => b0 (ix1 j))
    (fun k j => W1 (ix2 k j)) (fun j => b1 (ix1 j)) (fun k j => W2 (ix2 k j)) (fun j => b2 (ix1 j)) (i 1)

/-- `row` depends on its arguments entry by entry. -/
theorem row_congr {a a' : Fin 128 → EReal} {W0 W0' : Fin 128 → Fin 128 → EReal} {b0 b0' : Fin 128 → EReal}
    {W1 W1' : Fin 128 → Fin 128 → EReal} {b1 b1' : Fin 128 → EReal} {W2 W2' : Fin 128 → Fin 64 → EReal} {b2 b2' : Fin 64 → EReal}
    (ha : ∀ k, a k = a' k) (hW0 : ∀ k j, W0 k j = W0' k j) (hb0 : ∀ j, b0 j = b0' j) (hW1 : ∀ k j, W1 k j = W1' k j)
    (hb1 : ∀ j, b1 j = b1' j) (hW2 : ∀ k j, W2 k j = W2' k j) (hb2 : ∀ j, b2 j = b2' j) :
    row a W0 b0 W1 b1 W2 b2 = row a' W0' b0' W1' b1' W2' b2' := by
  obtain rfl : a = a' := funext ha
  obtain rfl : W0 = W0' := funext fun k => funext (hW0 k)
  obtain rfl : b0 = b0' := funext hb0
  obtain rfl : W1 = W1' := funext fun k => funext (hW1 k)
  obtain rfl : b1 = b1' := funext hb1
  obtain rfl : W2 = W2' := funext fun k => funext (hW2 k)
  obtain rfl : b2 = b2' := funext hb2
  rfl

/-- From `-∞` a maximum starts at its first argument: `max ⊥ y = y`. -/
theorem max_bot_left (y : EReal) : max (⊥ : EReal) y = y := max_eq_right bot_le

end Cert.Mlp

end
-- ==== Proof.KernelOps.lean ====
/-
  The body's operations that are not pointwise, each read at one index of a row tile, over the extended reals.

  A tile holds 10000 rows. At `(p, q)`:
  * a matrix product into the zero accumulator is `∑_k a_{p k} · w_{k q}` (128 terms);
  * a `[1, n]` bias row laid against the tile's rows is the bias entry `q`;
  * a reduction along the lanes of row `p` is that row's maximum from `-∞`, or the sum of its 64 entries.
-/
import proofs.«418171_j6356551598698_3_alg».proof.Proof.Gen.KernelIdeal
import proofs.«418171_j6356551598698_3_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The two matrix products -/

theorem lhs_sq_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_sq_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_sq_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_sq_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A tile times a 128 × 128 matrix, into zero: at `(p, q)` the sum over `k` of `a_{p k} · w_{k q}`. -/
theorem matmul_sq_apply {φ₁ φ₂ : FTy} (a : FVec Ideal S10000x128 φ₁) (w : FVec Ideal S128x128 φ₂) (p : Fin 10000) (q : Fin 128) :
    matmul dot_S10000x128_S128x128_S10000x128_1_0_0_1_n_n none a w (constant S10000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_sq_0 _ _
    | ⟨1, _⟩ => exact (lhs_sq_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_sq_0 _ _).trans hk
    | ⟨1, _⟩ => exact rhs_sq_1 _ _)
  rw [el, er]

theorem lhs_out_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_out_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_out_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_out_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A tile times the 128 × 64 matrix of the last layer, into zero: at `(p, q)` the sum over `k` of `a_{p k} · w_{k q}`. -/
theorem matmul_out_apply {φ₁ φ₂ : FTy} (a : FVec Ideal S10000x128 φ₁) (w : FVec Ideal S128x64 φ₂) (p : Fin 10000) (q : Fin 64) :
    matmul dot_S10000x128_S128x64_S10000x64_1_0_0_1_n_n none a w (constant S10000x64 .f32 0x00000000#32) (ix2 p q)
      = ∑ k : Fin 128, a (ix2 p k) * w (ix2 k q) := by
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-! ## The reductions along a row -/

/-- Row `p` with lane `k` put back is `(p, k)`. -/
theorem lift_row (h : S10000x64.Reduces [1] S10000) (p : Fin 10000) (k : Fin (S10000x64.size 1)) :
    h.lift (ix1 p) k = ix2 p (⟨k.val, k.isLt⟩ : Fin 64) := by
  funext a; apply Fin.ext
  match a with
  | ⟨0, _⟩ => rfl
  | ⟨1, _⟩ => rfl

/-- The pattern of `-∞` denotes `⊥`. -/
theorem ofBits_neg_inf : Ideal.ofBits .f32 0xFF800000#32 = (⊥ : EReal) := by simp [Ideal.ofBits, Ideal.ieee]

/-- The lane maximum of a tile, at row `p`: the row's maximum from `-∞`. -/
theorem rowMax_apply (v : FVec Ideal S10000x64 .f32) (h : S10000x64.Reduces [1] S10000) (hφ : FKind.Formats .f32)
    (hacc : (0xFF800000#32 : BitVec 32) = 0xFF800000#32) (p : Fin 10000) :
    multiReduction .maximumf [1] S10000 v 0xFF800000#32 h hφ hacc (ix1 p) = Cert.Mlp.rowMax fun j : Fin 64 => v (ix2 p j) := by
  refine (Ideal.multiReduction_maximumf_single v 0xFF800000#32 h hφ hacc (ix1 p)).trans ?_
  show (Finset.univ : Finset (Fin 64)).fold max (Ideal.ofBits .f32 0xFF800000#32) (v ∘ h.lift (ix1 p)) = _
  rw [ofBits_neg_inf]
  unfold Cert.Mlp.rowMax
  exact congrArg (fun f => Finset.fold max (⊥ : EReal) f (Finset.univ : Finset (Fin 64))) (funext fun k => congrArg v (lift_row h p k))

/-- The lane sum of a tile, at row `p`: the sum of the row's 64 entries. -/
theorem rowSum_apply (v : FVec Ideal S10000x64 .f32) (h : S10000x64.Reduces [1] S10000) (hφ : FKind.Formats .f32)
    (hacc : (0x00000000#32 : BitVec 32) = 0x00000000#32) (p : Fin 10000) :
    multiReduction .add [1] S10000 v 0x00000000#32 h hφ hacc (ix1 p) = ∑ j : Fin 64, v (ix2 p j) := by
  refine (Ideal.multiReduction_add_single v 0x00000000#32 h hφ hacc (ix1 p)).trans ?_
  show ∑ k : Fin 64, v (h.lift (ix1 p) k) = _
  exact Finset.sum_congr rfl fun k _ => congrArg v (lift_row h p k)

end Cert.KernelIdeal.Tile

end
-- ==== Proof.LibColumn.lean ====
/-
  Two layout operations on a column, read at an index. A column is an array of shape `[a, 1]`.

  * `broadcastTo_a1_ab_apply`: a column broadcast along `b` lanes reads, at `(p, c)`, the column's entry of row `p`
    (a keepdims reduction result, or a per-row scale, laid against a matrix).
  * `shapeCast_a_a1_apply`: a vector `[a]` cast to a column reads, at `(p, 0)`, the vector's entry `p`
    (`v[:, None]`, or a reshape `(a,) → (a, 1)`).

  Both are stated over the literal-extent index constructors `ix1`, `ix2`, for any element type.
-/
import Idealize.ShloMosaic.Lib.ValueIdx
import Idealize.ShloMosaic.Lib.Pipeline.Value

noncomputable section

namespace Cert.Lib

open Idealize.ShloMosaic Idealize.ShloMosaic.ValueIdx

/-- An `[a, 1]` column broadcast along `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib

end
-- ==== Proof.KernelRow.lean ====
/-
  The kernel's body on one tile of 10000 rows, read one row at a time.

  The body's result is a composition of four kinds of stage on whole tiles: a hidden dense layer (product with a
  128 × 128 weight block plus a bias row), SiLU, the last dense layer (128 × 64), and the row-wise `log_softmax`.
  Each stage acts on every row by itself, so entry `(p, q)` of the result is `Mlp.row` of row `p` of the input
  tile, at `q`. The weights enter as the blocks the body loads: a `[1, n]` bias block is read at `(0, j)`.
-/
import proofs.«418171_j6356551598698_3_alg».proof.Proof.Gen.KernelIdeal.Skeleton
import proofs.«418171_j6356551598698_3_alg».proof.Proof.KernelOps
import proofs.«418171_j6356551598698_3_alg».proof.Proof.LibColumn

noncomputable section

namespace Cert.KernelIdeal.Tile

open Cert.KernelIdeal Cert.KernelIdeal.Gen Idealize.ShloMosaic Idealize.ShloMosaic.ValueIdx

section Stages
variable {F : FTy → Type} [FloatOps F]

/-- A hidden dense layer on a tile: the product with the weight block, plus the bias row on every row. -/
def layerSq (a : FVec F S10000x128 .bf16) (w : Vec F S128x128 .bf16) (b : Vec F S1x128 .f32) : FVec F S10000x128 .f32 :=
  addf (matmul dot_S10000x128_S128x128_S10000x128_1_0_0_1_n_n none a (shapeCast S128x128 w Gen.shapeCasts_S128x128_S128x128) (constant S10000x128 .f32 0x00000000#32))
    (broadcastTo S10000x128 (shapeCast S1x128 b Gen.shapeCasts_S1x128_S1x128) Gen.broadcasts_S1x128_S10000x128)

/-- SiLU on a tile, handed on in the narrower format. -/
def act (h : FVec F S10000x128 .f32) : FVec F S10000x128 .bf16 :=
  truncf .bf16 (mulf h (logistic h)) Gen.bitsLt_bf16_f32

/-- The last dense layer on a tile: 128 features to 64 logits. -/
def layerOut (a : FVec F S10000x128 .bf16) (w : Vec F S128x64 .bf16) (b : Vec F S1x64 .f32) : FVec F S10000x64 .f32 :=
  addf (matmul dot_S10000x128_S128x64_S10000x64_1_0_0_1_n_n none a (shapeCast S128x64 w Gen.shapeCasts_S128x64_S128x64) (constant S10000x64 .f32 0x00000000#32))
    (broadcastTo S10000x64 (shapeCast S1x64 b Gen.shapeCasts_S1x64_S1x64) Gen.broadcasts_S1x64_S10000x64)

/-- The logits less their row's maximum. -/
def shifted (h : FVec F S10000x64 .f32) : FVec F S10000x64 .f32 :=
  subf h (broadcastTo S10000x64 (shapeCast S10000x1 (multiReduction .maximumf [1] S10000 h 0xFF800000#32 Gen.reduces_S10000x64_S10000 (.inl rfl) rfl) Gen.shapeCasts_S10000_S10000x1) Gen.broadcasts_S10000x1_S10000x64)

/-- Row-wise `log_softmax` on a tile of logits. -/
def logSoftmaxTile (h : FVec F S10000x64 .f32) : FVec F S10000x64 .f32 :=
  subf (shifted h) (broadcastTo S10000x64 (log (shapeCast S10000x1 (multiReduction .add [1] S10000 (exp (shifted h)) 0x00000000#32 Gen.reduces_S10000x64_S10000 (.inl rfl) rfl) Gen.shapeCasts_S10000_S10000x1)) Gen.broadcasts_S10000x1_S10000x64)

/-- The body's result is these stages composed. -/
theorem pay_eq (v0 : Vec F S10000x128 .f32) (v2 : Vec F S128x128 .bf16) (v5 : Vec F S1x128 .f32) (v12 : Vec F S128x128 .bf16)
    (v15 : Vec F S1x128 .f32) (v22 : Vec F S128x64 .bf16) (v25 : Vec F S1x64 .f32) :
    k0_pay1 v0 v2 v5 v12 v15 v22 v25
      = logSoftmaxTile (layerOut (act (layerSq (act (layerSq (truncf .bf16 v0 Gen.bitsLt_bf16_f32) v2 v5)) v12 v15)) v22 v25) := rfl

end Stages

/-! ## Each stage at an index, over the extended reals -/

/-- A hidden layer at `(p, q)`: the dense layer on row `p`. -/
theorem layerSq_apply (a : FVec Ideal S10000x128 .bf16) (w : Vec Ideal S128x128 .bf16) (b : Vec Ideal S1x128 .f32) (p : Fin 10000) (q : Fin 128) :
    layerSq a w b (ix2 p q) = Cert.Mlp.dense (fun k => a (ix2 p k)) (fun k j => w (ix2 k j)) (fun j => b (ix2 (0 : Fin 1) j)) q := by
  unfold layerSq
  rw [shapeCast_self, shapeCast_self, addf_apply, matmul_sq_apply, broadcastTo_1b_ab_apply]
  rfl

/-- SiLU at an index. -/
theorem act_apply (h : FVec Ideal S10000x128 .f32) (i : S10000x128.Idx) : act h i = Cert.Mlp.silu (h i) := rfl

/-- The last layer at `(p, q)`. -/
theorem layerOut_apply (a : FVec Ideal S10000x128 .bf16) (w : Vec Ideal S128x64 .bf16) (b : Vec Ideal S1x64 .f32) (p : Fin 10000) (q : Fin 64) :
    layerOut a w b (ix2 p q) = Cert.Mlp.dense (fun k => a (ix2 p k)) (fun k j => w (ix2 k j)) (fun j => b (ix2 (0 : Fin 1) j)) q := by
  unfold layerOut
  rw [shapeCast_self, shapeCast_self, addf_apply, matmul_out_apply, broadcastTo_1b_ab_apply]
  rfl

/-- A logit less its row's maximum. -/
theorem shifted_apply (h : FVec Ideal S10000x64 .f32) (p : Fin 10000) (q : Fin 64) :
    shifted h (ix2 p q) = h (ix2 p q) - Cert.Mlp.rowMax fun j : Fin 64 => h (ix2 p j) := by
  unfold shifted
  rw [subf_apply, Cert.Lib.broadcastTo_a1_ab_apply, Cert.Lib.shapeCast_a_a1_apply]
  exact congrArg (h (ix2 p q) - ·) (rowMax_apply h _ _ _ p)

/-- `log_softmax` of a tile at `(p, q)`: `log_softmax` of row `p`, at `q`. -/
theorem logSoftmaxTile_apply (h : FVec Ideal S10000x64 .f32) (p : Fin 10000) (q : Fin 64) :
    logSoftmaxTile h (ix2 p q) = Cert.Mlp.logSoftmax (fun j : Fin 64 => h (ix2 p j)) q := by
  unfold logSoftmaxTile
  rw [subf_apply, Cert.Lib.broadcastTo_a1_ab_apply]
  show shifted h (ix2 p q) - Ideal.log (shapeCast S10000x1 _ _ (ix2 p (0 : Fin 1))) = _
  rw [Cert.Lib.shapeCast_a_a1_apply]
  refine (congrArg (fun s => shifted h (ix2 p q) - Ideal.log s) (rowSum_apply (exp (shifted h)) _ _ _ p)).trans ?_
  rw [shifted_apply]
  unfold Cert.Mlp.logSoftmax
  refine congrArg (fun s => h (ix2 p q) - Cert.Mlp.rowMax (fun j : Fin 64 => h (ix2 p j)) - Ideal.log s) ?_
  exact Finset.sum_congr rfl fun j _ => by
    show Ideal.exp (shifted h (ix2 p j)) = _
    rw [shifted_apply]

/-- THE BODY'S RESULT AT `(p, q)`: the network on row `p` of the input tile, at `q`. -/
theorem pay_apply (v0 : Vec Ideal S10000x128 .f32) (v2 : Vec Ideal S128x128 .bf16) (v5 : Vec Ideal S1x128 .f32) (v12 : Vec Ideal S128x128 .bf16)
    (v15 : Vec Ideal S1x128 .f32) (v22 : Vec Ideal S128x64 .bf16) (v25 : Vec Ideal S1x64 .f32) (p : Fin 10000) (q : Fin 64) :
    k0_pay1 v0 v2 v5 v12 v15 v22 v25 (ix2 p q)
      = Cert.Mlp.row (fun k => v0 (ix2 p k)) (fun k j => v2 (ix2 k j)) (fun j => v5 (ix2 (0 : Fin 1) j))
          (fun k j => v12 (ix2 k j)) (fun j => v15 (ix2 (0 : Fin 1) j)) (fun k j => v22 (ix2 k j)) (fun j => v25 (ix2 (0 : Fin 1) j)) q := by
  rw [pay_eq, logSoftmaxTile_apply]
  unfold Cert.Mlp.row
  refine congrArg (fun f => Cert.Mlp.logSoftmax f q) (funext fun j => ?_)
  rw [layerOut_apply]
  refine congrArg (fun f => Cert.Mlp.dense f _ _ j) (funext fun k => ?_)
  rw [act_apply, layerSq_apply]
  refine congrArg (fun f => Cert.Mlp.silu (Cert.Mlp.dense f _ _ k)) (funext fun k' => ?_)
  rw [act_apply, layerSq_apply]
  rfl

end Cert.KernelIdeal.Tile

end
-- ==== Proof.KernelArray.lean ====
/-
  From row tiles to the whole result array.

  Grid point `t` (of 50) stages rows `10000 t … 10000 t + 9999` of the input and writes back the same rows of the
  result; the weights' blocks are the whole weight arrays at every point. Before the region the weights are only
  changed in format (the identity on extended reals) and each bias vector `[n]` is reshaped to a row `[1, n]`.
  So what point `t` writes back is block `t` of `Mlp.net` of the argument arrays, the 50 blocks cover the result,
  and the result array ends holding `Mlp.net` of the arguments.
-/
import proofs.«418171_j6356551598698_3_alg».proof.Proof.Gen.KernelIdeal.Value
import proofs.«418171_j6356551598698_3_alg».proof.Proof.KernelRow
import Idealize.ShloMosaic.Lib.StableHlo.Run
import Idealize.ShloMosaic.Lib.ValueLayout
import Idealize.ShloMosaic.Lib.Pipeline.Value

noncomputable section

namespace Cert.KernelIdeal.Whole

open Cert.KernelIdeal Cert.KernelIdeal.Gen Cert.KernelIdeal.Value Cert.KernelIdeal.Tile
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The network of the argument arrays as launched. -/
abbrev netOf (c : Dev nD) : FVec Ideal S500000x64 .f32 :=
  Cert.Mlp.net (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

theorem hz : (![0, 0] : Fin 2 → Nat) = fun _ => 0 := funext fun a => by fin_cases a <;> rfl

/-! ## The arrays the region finds: the weights in the narrower format, the biases as rows -/

theorem V_w0 (c : Dev nD) : (V m c main_v0 : S128x128.Idx → EReal) = (m ((c : Thread nD τ).loc main_arg2) : S128x128.Idx → EReal) := by
  dsimp only [Gen.V, Gen.hostOps0]; after_results; rfl
theorem V_w1 (c : Dev nD) : (V m c main_v1 : S128x128.Idx → EReal) = (m ((c : Thread nD τ).loc main_arg4) : S128x128.Idx → EReal) := by
  dsimp only [Gen.V, Gen.hostOps0]; after_results; rfl
theorem V_w2 (c : Dev nD) : (V m c main_v2 : S128x64.Idx → EReal) = (m ((c : Thread nD τ).loc main_arg6) : S128x64.Idx → EReal) := by
  dsimp only [Gen.V, Gen.hostOps0]; after_results; rfl
theorem V_b0 (c : Dev nD) : (V m c main_v3 : S1x128.Idx → EReal)
    = shapeCast S1x128 (m ((c : Thread nD τ).loc main_arg3) : S128.Idx → EReal) Gen.shapeCasts_S128_S1x128 := by
  dsimp only [Gen.V, Gen.hostOps0]; after_results; rfl
theorem V_b1 (c : Dev nD) : (V m c main_v4 : S1x128.Idx → EReal)
    = shapeCast S1x128 (m ((c : Thread nD τ).loc main_arg5) : S128.Idx → EReal) Gen.shapeCasts_S128_S1x128 := by
  dsimp only [Gen.V, Gen.hostOps0]; after_results; rfl
theorem V_b2 (c : Dev nD) : (V m c main_v5 : S1x64.Idx → EReal)
    = shapeCast S1x64 (m ((c : Thread nD τ).loc main_arg7) : S64.Idx → EReal) Gen.shapeCasts_S64_S1x64 := by
  dsimp only [Gen.V, Gen.hostOps0]; after_results; rfl

/-! ## Where each window's block sits -/

/-- The printed index maps over the 50 points: the input tile and the result tile are at block row `t`, every weight
    and bias block at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the input tile at point `t` is row `10000 t + p` of the input. -/
theorem xblk_apply (c : Dev nD) (t : Fin cfg0.N) (p : Fin 10000) (k : Fin 128) (i : S500000x128.Idx)
    (hi0 : (i 0).val = t.val * 10000 + p.val) (hi1 : (i 1).val = k.val) :
    (iblk m c 0 t : Vec Ideal S10000x128 .f32) (ix2 p k) = (m ((c : Thread nD τ).loc main_arg0) : S500000x128.Idx → EReal) i := by
  obtain ⟨e0, e1, -⟩ := idx_facts t
  unfold iblk
  rw [View.read_apply]
  refine (congrFun (V_main_arg0 m c) _).trans ?_
  refine congrArg (m ((c : Thread nD τ).loc main_arg0) : S500000x128.Idx → EReal) (funext fun a => Fin.ext ?_)
  match a with
  | ⟨0, _⟩ => show win0_0.index t (0 : Fin 2) * 10000 + 1 * p.val = (i 0).val; rw [e0, hi0]; omega
  | ⟨1, _⟩ => show win0_0.index t (1 : Fin 2) * 128 + 1 * k.val = (i 1).val; rw [e1, hi1]; omega

/-- The first weight block is the first weight array. -/
theorem w0blk_apply (c : Dev nD) (t : Fin cfg0.N) (k j : Fin 128) :
    (iblk m c 1 t : Vec Ideal S128x128 .bf16) (ix2 k j) = (m ((c : Thread nD τ).loc main_arg2) : S128x128.Idx → EReal) (ix2 k j) := by
  obtain ⟨-, -, e0, e1, -⟩ := idx_facts t
  unfold iblk
  rw [View.read_apply]
  refine (congrFun (V_w0 m c) _).trans ?_
  refine congrArg (m ((c : Thread nD τ).loc main_arg2) : S128x128.Idx → EReal) (funext fun a => Fin.ext ?_)
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- The second weight block is the second weight array. -/
theorem w1blk_apply (c : Dev nD) (t : Fin cfg0.N) (k j : Fin 128) :
    (iblk m c 3 t : Vec Ideal S128x128 .bf16) (ix2 k j) = (m ((c : Thread nD τ).loc main_arg4) : S128x128.Idx → EReal) (ix2 k j) := by
  obtain ⟨-, -, -, -, -, -, e0, e1, -⟩ := idx_facts t
  unfold iblk
  rw [View.read_apply]
  refine (congrFun (V_w1 m c) _).trans ?_
  refine congrArg (m ((c : Thread nD τ).loc main_arg4) : S128x128.Idx → EReal) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The third weight block is the third weight array. -/
theorem w2blk_apply (c : Dev nD) (t : Fin cfg0.N) (k : Fin 128) (j : Fin 64) :
    (iblk m c 5 t : Vec Ideal S128x64 .bf16) (ix2 k j) = (m ((c : Thread nD τ).loc main_arg6) : S128x64.Idx → EReal) (ix2 k j) := by
  obtain ⟨-, -, -, -, -, -, -, -, -, -, e0, e1, -⟩ := idx_facts t
  unfold iblk
  rw [View.read_apply]
  refine (congrFun (V_w2 m c) _).trans ?_
  refine congrArg (m ((c : Thread nD τ).loc main_arg6) : S128x64.Idx → EReal) (funext fun a => Fin.ext ?_)
  match a with
  | ⟨0, _⟩ => show win0_5.index t (0 : Fin 2) * 128 + 1 * k.val = k.val; rw [e0]; omega
  | ⟨1, _⟩ => show win0_5.index t (1 : Fin 2) * 64 + 1 * j.val = j.val; rw [e1]; omega

/-- The first bias block, a row, holds the first bias vector. -/
theorem b0blk_apply (c : Dev nD) (t : Fin cfg0.N) (j : Fin 128) :
    (iblk m c 2 t : Vec Ideal S1x128 .f32) (ix2 (0 : Fin 1) j) = (m ((c : Thread nD τ).loc main_arg3) : S128.Idx → EReal) (ix1 j) := by
  obtain ⟨-, -, -, -, e0, e1, -⟩ := idx_facts t
  unfold iblk
  rw [View.read_apply]
  refine (congrFun (V_b0 m c) _).trans ?_
  refine Eq.trans (congrArg (shapeCast S1x128 (m ((c : Thread nD τ).loc main_arg3) : S128.Idx → EReal) Gen.shapeCasts_S128_S1x128) (funext fun a => Fin.ext ?_))
    (shapeCast_a_1a_apply _ _ (0 : Fin 1) j)
  match a with
  | ⟨0, _⟩ => show win0_2.index t (0 : Fin 2) * 1 + 1 * 0 = 0; rw [e0]
  | ⟨1, _⟩ => show win0_2.index t (1 : Fin 2) * 128 + 1 * j.val = j.val; rw [e1]; omega

/-- The second bias block holds the second bias vector. -/
theorem b1blk_apply (c : Dev nD) (t : Fin cfg0.N) (j : Fin 128) :
    (iblk m c 4 t : Vec Ideal S1x128 .f32) (ix2 (0 : Fin 1) j) = (m ((c : Thread nD τ).loc main_arg5) : S128.Idx → EReal) (ix1 j) := by
  obtain ⟨-, -, -, -, -, -, -, -, e0, e1, -⟩ := idx_facts t
  unfold iblk
  rw [View.read_apply]
  refine (congrFun (V_b1 m c) _).trans ?_
  refine Eq.trans (congrArg (shapeCast S1x128 (m ((c : Thread nD τ).loc main_arg5) : S128.Idx → EReal) Gen.shapeCasts_S128_S1x128) (funext fun a => Fin.ext ?_))
    (shapeCast_a_1a_apply _ _ (0 : Fin 1) j)
  match a with
  | ⟨0, _⟩ => show win0_4.index t (0 : Fin 2) * 1 + 1 * 0 = 0; rw [e0]
  | ⟨1, _⟩ => show win0_4.index t (1 : Fin 2) * 128 + 1 * j.val = j.val; rw [e1]; omega

/-- The third bias block holds the third bias vector. -/
theorem b2blk_apply (c : Dev nD) (t : Fin cfg0.N) (j : Fin 64) :
    (iblk m c 6 t : Vec Ideal S1x64 .f32) (ix2 (0 : Fin 1) j) = (m ((c : Thread nD τ).loc main_arg7) : S64.Idx → EReal) (ix1 j) := by
  obtain ⟨-, -, -, -, -, -, -, -, -, -, -, -, e0, e1, -⟩ := idx_facts t
  unfold iblk
  rw [View.read_apply]
  refine (congrFun (V_b2 m c) _).trans ?_
  refine Eq.trans (congrArg (shapeCast S1x64 (m ((c : Thread nD τ).loc main_arg7) : S64.Idx → EReal) Gen.shapeCasts_S64_S1x64) (funext fun a => Fin.ext ?_))
    (shapeCast_a_1a_apply _ _ (0 : Fin 1) j)
  match a with
  | ⟨0, _⟩ => show win0_6.index t (0 : Fin 2) * 1 + 1 * 0 = 0; rw [e0]
  | ⟨1, _⟩ => show win0_6.index t (1 : Fin 2) * 64 + 1 * j.val = j.val; rw [e1]; omega

/-! ## What a point writes back, and the whole array -/

/-- The body's result on the blocks of point `t`, at entry `j` of the tile, is the network at row `10000 t + j₀`. -/
theorem tile_net (c : Dev nD) (t : Fin cfg0.N) (j : S10000x64.Idx) (i : S500000x64.Idx)
    (hi0 : (i 0).val = t.val * 10000 + (j 0).val) (hi1 : (i 1).val = (j 1).val) :
    k0_pay1 (iblk m c 0 t) (iblk m c 1 t) (iblk m c 2 t) (iblk m c 3 t) (iblk m c 4 t) (iblk m c 5 t) (iblk m c 6 t) j = netOf m c i := by
  obtain ⟨p, q, rfl⟩ : ∃ (p : Fin 10000) (q : Fin 64), j = ix2 p q := ⟨j 0, j 1, eq_ix2 j⟩
  have hq : i 1 = q := Fin.ext hi1
  refine (pay_apply (iblk m c 0 t) (iblk m c 1 t) (iblk m c 2 t) (iblk m c 3 t) (iblk m c 4 t) (iblk m c 5 t) (iblk m c 6 t) p q).trans ?_
  refine (congrFun (Cert.Mlp.row_congr (fun k => xblk_apply m c t p k (ix2 (i 0) k) hi0 rfl) (fun k j => w0blk_apply m c t k j)
    (fun j => b0blk_apply m c t j) (fun k j => w1blk_apply m c t k j) (fun j => b1blk_apply m c t j)
    (fun k j => w2blk_apply m c t k j) (fun j => b2blk_apply m c t j)) q).trans ?_
  unfold netOf Cert.Mlp.net
  rw [hq]

/-- WHAT POINT `t` WRITES BACK is block `t` of the network of the argument arrays. -/
theorem flushed_eq (c : Dev nD) (t : Fin cfg0.N) :
    (dats m 0 c).flushed 7 t = ((cfg0.win 7).blk t).view.read (Elt Ideal) (netOf m c) := by
  obtain ⟨-, -, -, -, -, -, -, -, -, -, -, -, -, -, e0, e1⟩ := idx_facts t
  rw [Value.flushed7]
  unfold out0_7
  rw [View.canon_unit_zero hz]
  simp only [View.ld_unit_zero (S := S10000x128) hz, View.ld_unit_zero (S := S128x128) hz, View.ld_unit_zero (S := S1x128) hz,
    View.ld_unit_zero (S := S128x64) hz, View.ld_unit_zero (S := S1x64) hz]
  funext j
  refine tile_net m c t j (((cfg0.win 7).blk t).view.emb j) ?_ ?_
  · show win0_7.index t (0 : Fin 2) * 10000 + 1 * (j 0).val = t.val * 10000 + (j 0).val; rw [e0]; omega
  · show win0_7.index t (1 : Fin 2) * 64 + 1 * (j 1).val = (j 1).val; rw [e1]; omega

/-- An index of the result is in point `t`'s block iff each coordinate is in the block's range on its axis. -/
theorem mem_blk (t : Fin cfg0.N) (i : S500000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v6).slice (win0_7.rect t)).set ↔ _
  rw [View.set_slice_whole, Rect.mem_set_unit]
  exact Iff.rfl

/-- Row `r` of the result is written back by point `r / 10000`. -/
theorem cover (i : S500000x64.Idx) : ∃ t : Fin cfg0.N, (cfg0.win 7).flush t = true ∧ i ∈ ((cfg0.win 7).blk t).view.set := by
  have hi0 : (i 0).val < 500000 := (i 0).isLt
  have hi1 : (i 1).val < 64 := (i 1).isLt
  have hN : cfg0.N = 50 := N_0
  have ht : (i 0).val / 10000 < cfg0.N := by rw [hN]; omega
  obtain ⟨-, -, -, -, -, -, -, -, -, -, -, -, -, -, e0, e1⟩ := idx_facts ⟨(i 0).val / 10000, ht⟩
  refine ⟨⟨(i 0).val / 10000, ht⟩, flush0_7 _, ?_⟩
  rw [mem_blk]
  intro a
  match a with
  | ⟨0, _⟩ =>
    show win0_7.index ⟨(i 0).val / 10000, ht⟩ (0 : Fin 2) * 10000 ≤ (i 0).val ∧ (i 0).val < win0_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_7.index ⟨(i 0).val / 10000, ht⟩ (1 : Fin 2) * 64 ≤ (i 1).val ∧ (i 1).val < win0_7.index ⟨(i 0).val / 10000, ht⟩ (1 : Fin 2) * 64 + 64
    rw [e1]; omega

/-- THE RESULT ARRAY after the run: the network of the argument arrays. -/
theorem final (c : Dev nD) : (dats m 0 c).arrAt 7 cfg0.N = netOf m c :=
  (dats m 0 c).arrAt_eq_of_cover 7 (netOf m c) (fun t _ => flushed_eq m c t) cover

/-- The kernel's run, read: the result at the network of the arguments, the arguments unchanged. -/
theorem run : θ_run defs (onTc (τ := τ) (main (F := Ideal))) ⟨m, fun _ => 0, ρ⟩ fun r => ∀ c : Dev nD,
      r.2.mem ((c : Thread nD τ).loc main_v6) = netOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefRun.lean ====
/-
  The reference's run, stage by stage.

  The reference's @main is a straight line of 45 host operations: thirteen for the first dense layer and its SiLU
  (the product, the bias broadcast in two steps, the sum, then `h · (1 / (1 + e^(-h)))` spelt out), thirteen for the
  second, four for the last dense layer, and the fifteen of `log_softmax` inlined at its call. Every weakly fair
  execution runs them in order. What the result buffer holds at the end is computed one stretch at a time: each stretch
  reads a single value of the stretch before (the activation, or the logits) and arguments that no operation writes,
  so its result is a short term over those, and the four short terms compose to the stage `val_main_v26` of the
  arguments.
-/
import proofs.«418171_j6356551598698_3_alg».proof.Proof.Gen.ReferenceIdeal
import proofs.«418171_j6356551598698_3_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operations, in four stretches -/

/-- The first dense layer and its SiLU. -/
abbrev ops1 : List (HloOp τ sig (Elt F)) :=
  [ binary main_arg0 main_arg2 main_v0 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S500000x128 ![0, 1] bcast_S1x128_S500000x128_0_1 : (⟨S1x128, .f32⟩ : BufTy).Contents (Elt F) → (⟨S500000x128, .f32⟩ : BufTy).Contents (Elt F)),
    binary main_v0 main_v2 main_v3 (addf : (⟨S500000x128, .f32⟩ : BufTy).Contents (Elt F) → (⟨S500000x128, .f32⟩ : BufTy).Contents (Elt F) → (⟨S500000x128, .f32⟩ : BufTy).Contents (Elt F)),
    unary main_v3 main_v4 (Host.negf : (⟨S500000x128, .f32⟩ : BufTy).Contents (Elt F) → (⟨S500000x128, .f32⟩ : BufTy).Contents (Elt F)),
    unary main_v4 main_v5 (Host.exp : (⟨S500000x128, .f32⟩ : BufTy).Contents (Elt F) → (⟨S500000x128, .f32⟩ : BufTy).Contents (Elt F)),
    nullary main_cst (constant S_ .f32 0x3F800000#32),
    unary main_cst main_v6 (broadcastInDim S500000x128 ![] bcast_S_S500000x128 : (⟨S_, .f32⟩ : BufTy).Contents (Elt F) → (⟨S500000x128, .f32⟩ : BufTy).Contents (Elt F)),
    binary main_v6 main_v5 main_v7 (addf : (⟨S500000x128, .f32⟩ : BufTy).Contents (Elt F) → (⟨S500000x128, .f32⟩ : BufTy).Contents (Elt F) → (⟨S500000x128, .f32⟩ : BufTy).Contents (Elt F)),
    nullary main_cst_0 (constant S_ .f32 0x3F800000#32),
    unary main_cst_0 main_v8 (broadcastInDim S500000x128 ![] bcast_S_S500000x128 : (⟨S_, .f32⟩ : BufTy).Contents (Elt F) → (⟨S500000x128, .f32⟩ : BufTy).Contents (Elt F)),
    binary main_v8 main_v7 main_v9 (Host.divf : (⟨S500000x128, .f32⟩ : BufTy).Contents (Elt F) → (⟨S500000x128, .f32⟩ : BufTy).Contents (Elt F) → (⟨S500000x128, .f32⟩ : BufTy).Contents (Elt F)),
    binary main_v3 main_v9 main_v10 (mulf : (⟨S500000x128, .f32⟩ : BufTy).Contents (Elt F) → (⟨S500000x128, .f32⟩ : BufTy).Contents (Elt F) → (⟨S500000x128, .f32⟩ : BufTy).Contents (Elt F)) ]

/-- The second dense layer and its SiLU. -/
abbrev ops2 : List (HloOp τ sig (Elt F)) :=
  [ binary main_v10 main_arg4 main_v11 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg5 main_v12 (broadcastInDim S1x128 ![1] bcast_S128_S1x128_1 : (⟨S128, .f32⟩ : BufTy).Contents (Elt F) → (⟨S1x128, .f32⟩ : BufTy).Contents (Elt F)),
    unary main_v12 main_v13 (broadcastInDim S500000x128 ![0, 1] bcast_S1x128_S500000x128_0_1 : (⟨S1x128, .f32⟩ : BufTy).Contents (Elt F) → (⟨S500000x128, .f32⟩ : BufTy).Contents (Elt F)),
    binary main_v11 main_v13 main_v14 (addf : (⟨S500000x128, .f32⟩ : BufTy).Contents (Elt F) → (⟨S500000x128, .f32⟩ : BufTy).Contents (Elt F) → (⟨S500000x128, .f32⟩ : BufTy).Contents (Elt F)),
    unary main_v14 main_v15 (Host.negf : (⟨S500000x128, .f32⟩ : BufTy).Contents (Elt F) → (⟨S500000x128, .f32⟩ : BufTy).Contents (Elt F)),
    unary main_v15 main_v16 (Host.exp : (⟨S500000x128, .f32⟩ : BufTy).Contents (Elt F) → (⟨S500000x128, .f32⟩ : BufTy).Contents (Elt F)),
    nullary main_cst_1 (constant S_ .f32 0x3F800000#32),
    unary main_cst_1 main_v17 (broadcastInDim S500000x128 ![] bcast_S_S500000x128 : (⟨S_, .f32⟩ : BufTy).Contents (Elt F) → (⟨S500000x128, .f32⟩ : BufTy).Contents (Elt F)),
    binary main_v17 main_v16 main_v18 (addf : (⟨S500000x128, .f32⟩ : BufTy).Contents (Elt F) → (⟨S500000x128, .f32⟩ : BufTy).Contents (Elt F) → (⟨S500000x128, .f32⟩ : BufTy).Contents (Elt F)),
    nullary main_cst_2 (constant S_ .f32 0x3F800000#32),
    unary main_cst_2 main_v19 (broadcastInDim S500000x128 ![] bcast_S_S500000x128 : (⟨S_, .f32⟩ : BufTy).Contents (Elt F) → (⟨S500000x128, .f32⟩ : BufTy).Contents (Elt F)),
    binary main_v19 main_v18 main_v20 (Host.divf : (⟨S500000x128, .f32⟩ : BufTy).Contents (Elt F) → (⟨S500000x128, .f32⟩ : BufTy).Contents (Elt F) → (⟨S500000x128, .f32⟩ : BufTy).Contents (Elt F)),
    binary main_v14 main_v20 main_v21 (mulf : (⟨S500000x128, .f32⟩ : BufTy).Contents (Elt F) → (⟨S500000x128, .f32⟩ : BufTy).Contents (Elt F) → (⟨S500000x128, .f32⟩ : BufTy).Contents (Elt F)) ]

/-- The last dense layer: the logits. -/
abbrev ops3 : List (HloOp τ sig (Elt F)) :=
  [ binary main_v21 main_arg6 main_v22 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    unary main_arg7 main_v23 (broadcastInDim S1x64 ![1] bcast_S64_S1x64_1 : (⟨S64, .f32⟩ : BufTy).Contents (Elt F) → (⟨S1x64, .f32⟩ : BufTy).Contents (Elt F)),
    unary main_v23 main_v24 (broadcastInDim S500000x64 ![0, 1] bcast_S1x64_S500000x64_0_1 : (⟨S1x64, .f32⟩ : BufTy).Contents (Elt F) → (⟨S500000x64, .f32⟩ : BufTy).Contents (Elt F)),
    binary main_v22 main_v24 main_v25 (addf : (⟨S500000x64, .f32⟩ : BufTy).Contents (Elt F) → (⟨S500000x64, .f32⟩ : BufTy).Contents (Elt F) → (⟨S500000x64, .f32⟩ : BufTy).Contents (Elt F)) ]

/-- `log_softmax` of the logits, its operations in the call's place. -/
abbrev ops4 : List (HloOp τ sig (Elt F)) :=
  [ TRef.nullary (TRef.of (T := ⟨S_, .f32⟩) main_call0_cst) (constant S_ .f32 0xFF800000#32),
    TRef.binary (TRef.of (T := ⟨S500000x64, .f32⟩) main_v25) (TRef.of (T := ⟨S_, .f32⟩) main_call0_cst) (TRef.of (T := ⟨S500000, .f32⟩) main_call0_v0) (fun x v => Host.reduce FloatOps.maximumf x v reducesTo_S500000x64_S500000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S500000, .f32⟩) main_call0_v1) (broadcastInDim S500000 ![] bcast_S_S500000),
    TRef.binary (TRef.of (T := ⟨S500000, .f32⟩) main_call0_v1) (TRef.of (T := ⟨S500000, .f32⟩) main_call0_v0) (TRef.of (T := ⟨S500000, .f32⟩) main_call0_v2) maximumf,
    TRef.unary (TRef.of (T := ⟨S500000, .f32⟩) main_call0_v2) (TRef.of (T := ⟨S500000x1, .f32⟩) main_call0_v3) (broadcastInDim S500000x1 ![0] bcast_S500000_S500000x1_0),
    TRef.unary (TRef.of (T := ⟨S500000x1, .f32⟩) main_call0_v3) (TRef.of (T := ⟨S500000x64, .f32⟩) main_call0_v4) (broadcastInDim S500000x64 ![0, 1] bcast_S500000x1_S500000x64_0_1),
    TRef.binary (TRef.of (T := ⟨S500000x64, .f32⟩) main_v25) (TRef.of (T := ⟨S500000x64, .f32⟩) main_call0_v4) (TRef.of (T := ⟨S500000x64, .f32⟩) main_call0_v5) subf,
    TRef.unary (TRef.of (T := ⟨S500000x64, .f32⟩) main_call0_v5) (TRef.of (T := ⟨S500000x64, .f32⟩) main_call0_v6) Host.exp,
    TRef.nullary (TRef.of (T := ⟨S_, .f32⟩) main_call0_cst_1) (constant S_ .f32 0x00000000#32),
    TRef.binary (TRef.of (T := ⟨S500000x64, .f32⟩) main_call0_v6) (TRef.of (T := ⟨S_, .f32⟩) main_call0_cst_1) (TRef.of (T := ⟨S500000, .f32⟩) main_call0_v7) (fun x v => Host.reduceAdd x v reducesTo_S500000x64_S500000_d1 h_S_),
    TRef.unary (TRef.of (T := ⟨S500000, .f32⟩) main_call0_v7) (TRef.of (T := ⟨S500000x1, .f32⟩) main_call0_v8) (broadcastInDim S500000x1 ![0] bcast_S500000_S500000x1_0),
    TRef.unary (TRef.of (T := ⟨S500000x1, .f32⟩) main_call0_v8) (TRef.of (T := ⟨S500000x1, .f32⟩) main_call0_v9) Host.log,
    TRef.unary (TRef.of (T := ⟨S500000x1, .f32⟩) main_call0_v9) (TRef.of (T := ⟨S500000x64, .f32⟩) main_call0_v10) (broadcastInDim S500000x64 ![0, 1] bcast_S500000x1_S500000x64_0_1),
    TRef.binary (TRef.of (T := ⟨S500000x64, .f32⟩) main_call0_v5) (TRef.of (T := ⟨S500000x64, .f32⟩) main_call0_v10) (TRef.of (T := ⟨S500000x64, .f32⟩) main_v26) subf ]

/-- @main's 45 operations, in order. -/
abbrev ops : List (HloOp τ sig (Elt F)) := ops1 ++ (ops2 ++ (ops3 ++ ops4))

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of their concatenation. -/
theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem ops1_sub : (ops1 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem ops2_sub : (ops2 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩
theorem ops3_sub : (ops3 : List (HloOp τ sig (Elt F))).Forall fun op => op.bufs ⊆ tcRefs τ sig :=
  ⟨binary_bufs_sub .., unary_bufs_sub .., unary_bufs_sub .., binary_bufs_sub ..⟩
theorem ops4_sub : (ops4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  forall_append ops1_sub (forall_append ops2_sub (forall_append ops3_sub ops4_sub))

/-- Every operation determines its result. -/
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.1 h).elim (ops1_fresh op) fun h => (List.mem_append.1 h).elim (ops2_fresh op) fun h =>
    (List.mem_append.1 h).elim (ops3_fresh op) (ops4_fresh op)

/-! ## Each stretch's result -/

/-- After the first stretch the activation's buffer holds its stage of the arguments. -/
theorem stage1 (V : Valuation τ sig (Elt F)) :
    after ops1 V (Proc.devRef .tc main_v10) = val_main_v10 (F := F) (V (Proc.devRef .tc main_arg0)) (V (Proc.devRef .tc main_arg2)) (V (Proc.devRef .tc main_arg3)) := by
  after_results
  rfl

/-- The first stretch writes none of the later layers' weights and biases. -/
theorem keep1 (V : Valuation τ sig (Elt F)) :
    after ops1 V (Proc.devRef .tc main_arg4) = V (Proc.devRef .tc main_arg4)
    ∧ after ops1 V (Proc.devRef .tc main_arg5) = V (Proc.devRef .tc main_arg5)
    ∧ after ops1 V (Proc.devRef .tc main_arg6) = V (Proc.devRef .tc main_arg6)
    ∧ after ops1 V (Proc.devRef .tc main_arg7) = V (Proc.devRef .tc main_arg7) := by
  refine ⟨?_, ?_, ?_, ?_⟩ <;> (after_results_simp <;> rfl)

/-- The second stretch, from contents holding the first activation and the second layer's weights and bias. -/
theorem stage2 (W : Valuation τ sig (Elt F)) (x0 : (⟨S500000x128, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F))
    (h10 : W (Proc.devRef .tc main_v10) = val_main_v10 (F := F) x0 x2 x3) (h4 : W (Proc.devRef .tc main_arg4) = x4)
    (h5 : W (Proc.devRef .tc main_arg5) = x5) :
    after ops2 W (Proc.devRef .tc main_v21) = val_main_v21 (F := F) x0 x2 x3 x4 x5 := by
  after_results
  rw [h10, h4, h5]
  rfl

/-- The second stretch writes none of the last layer's weights and bias. -/
theorem keep2 (W : Valuation τ sig (Elt F)) :
    after ops2 W (Proc.devRef .tc main_arg6) = W (Proc.devRef .tc main_arg6)
    ∧ after ops2 W (Proc.devRef .tc main_arg7) = W (Proc.devRef .tc main_arg7) := by
  refine ⟨?_, ?_⟩ <;> (after_results_simp <;> rfl)

/-- The third stretch, from contents holding the second activation and the last layer's weights and bias: the logits. -/
theorem stage3 (W : Valuation τ sig (Elt F)) (x0 : (⟨S500000x128, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F))
    (h21 : W (Proc.devRef .tc main_v21) = val_main_v21 (F := F) x0 x2 x3 x4 x5) (h6 : W (Proc.devRef .tc main_arg6) = x6)
    (h7 : W (Proc.devRef .tc main_arg7) = x7) :
    after ops3 W (Proc.devRef .tc main_v25) = val_main_v25 (F := F) x0 x2 x3 x4 x5 x6 x7 := by
  after_results
  rw [h21, h6, h7]
  rfl

/-- Contents moved to a typed reference's buffer type and back are the contents. -/
theorem ofBuf_toBuf {Val : EltTy → Type} {T : BufTy} (x : TRef sig T) (v : T.Contents Val) : x.ofBuf (x.toBuf v) = v := by
  obtain ⟨r, h, _, _⟩ := x
  subst h
  rfl

/-- The reference's `log_softmax` as its operations compose, on an array `y` of logits: `z = y - μ` with `μ` the row
    maximum from `-∞` (the maximum with `-∞` once more), then `z - log (∑ e^z)` along the lanes, from zero. -/
def logSoftmaxOps (y : (⟨S500000x64, .f32⟩ : BufTy).Contents (Elt F)) : (⟨S500000x64, .f32⟩ : BufTy).Contents (Elt F) :=
  subf
    (subf y
      (broadcastInDim S500000x64 ![0, 1] bcast_S500000x1_S500000x64_0_1
        (broadcastInDim S500000x1 ![0] bcast_S500000_S500000x1_0
          (maximumf (broadcastInDim S500000 ![] bcast_S_S500000 (constant S_ .f32 0xFF800000#32))
            (Host.reduce FloatOps.maximumf y (constant S_ .f32 0xFF800000#32) reducesTo_S500000x64_S500000_d1 h_S_)))))
    (broadcastInDim S500000x64 ![0, 1] bcast_S500000x1_S500000x64_0_1
      (Host.log
        (broadcastInDim S500000x1 ![0] bcast_S500000_S500000x1_0
          (Host.reduceAdd
            (Host.exp
              (subf y
                (broadcastInDim S500000x64 ![0, 1] bcast_S500000x1_S500000x64_0_1
                  (broadcastInDim S500000x1 ![0] bcast_S500000_S500000x1_0
                    (maximumf (broadcastInDim S500000 ![] bcast_S_S500000 (constant S_ .f32 0xFF800000#32))
                      (Host.reduce FloatOps.maximumf y (constant S_ .f32 0xFF800000#32) reducesTo_S500000x64_S500000_d1 h_S_))))))
            (constant S_ .f32 0x00000000#32) reducesTo_S500000x64_S500000_d1 h_S_))))

attribute [local irreducible] Host.reduce Host.reduceAdd in
/-- The last stretch, from contents holding an array `y` of logits: the operations' composition on `y`. The typed
    references of the inlined function carry their contents unchanged, and the reductions stay folded: the equation
    never looks inside them. -/
theorem stage4_ops (W : Valuation τ sig (Elt F)) (y : (⟨S500000x64, .f32⟩ : BufTy).Contents (Elt F))
    (hy : W (Proc.devRef .tc main_v25) = y) :
    after ops4 W (Proc.devRef .tc main_v26) = logSoftmaxOps y := by
  after_results
  repeat rw [ofBuf_toBuf]
  have e : (TRef.of (T := ⟨S500000x64, .f32⟩) main_v25).ofBuf (W (Proc.devRef .tc (TRef.of (T := ⟨S500000x64, .f32⟩) main_v25).ref)) = y := hy
  rw [e]
  rfl

attribute [local irreducible] Host.reduce Host.reduceAdd in
/-- On the logits' stage those operations give the last stage. -/
theorem logSoftmaxOps_val (x0 : (⟨S500000x128, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F)) :
    logSoftmaxOps (val_main_v25 (F := F) x0 x2 x3 x4 x5 x6 x7) = val_main_v26 (F := F) x0 x2 x3 x4 x5 x6 x7 := rfl

/-- The last stretch, from contents holding the logits: their `log_softmax`. -/
theorem stage4 (W : Valuation τ sig (Elt F)) (x0 : (⟨S500000x128, .f32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x64, .f32⟩ : BufTy).Contents (Elt F)) (x7 : (⟨S64, .f32⟩ : BufTy).Contents (Elt F))
    (h25 : W (Proc.devRef .tc main_v25) = val_main_v25 (F := F) x0 x2 x3 x4 x5 x6 x7) :
    after ops4 W (Proc.devRef .tc main_v26) = val_main_v26 (F := F) x0 x2 x3 x4 x5 x6 x7 :=
  (stage4_ops W _ h25).trans (logSoftmaxOps_val x0 x2 x3 x4 x5 x6 x7)

/-! ## The whole line -/

/-- After all 45 operations the result buffer holds the last stage of the arguments as they were at the start. -/
theorem after_result (V : Valuation τ sig (Elt F)) :
    after ops V (Proc.devRef .tc main_v26)
      = val_main_v26 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  show after (ops1 ++ (ops2 ++ (ops3 ++ ops4))) V _ = _
  rw [StableHlo.after_append, StableHlo.after_append, StableHlo.after_append]
  obtain ⟨k4, k5, k6, k7⟩ := keep1 V
  obtain ⟨k6', k7'⟩ := keep2 (after ops1 V)
  exact stage4 _ _ _ _ _ _ _ _ (stage3 _ _ _ _ _ _ _ _ (stage2 _ _ _ _ _ _ (stage1 V) k4 k5) (k6'.trans k6) (k7'.trans k7))

/-- No operation writes an argument. -/
theorem after_args (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) := by
  refine ⟨?_, ?_, ?_, ?_, ?_, ?_, ?_, ?_⟩ <;>
    (simp only [List.cons_append, List.nil_append]; after_results_simp <;> rfl)

/-- On every device, for any float values, from any memory with zero counters: every weakly fair execution of @main
    terminates with the result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = val_main_v26 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨a0, a1, a2, a3, a4, a5, a6, a7⟩ := after_args (F := F) (launchContents m c)
      exact ⟨(h c main_v26).trans (after_result (launchContents m c)), (h c main_arg0).trans a0, (h c main_arg1).trans a1,
        (h c main_arg2).trans a2, (h c main_arg3).trans a3, (h c main_arg4).trans a4, (h c main_arg5).trans a5,
        (h c main_arg6).trans a6, (h c main_arg7).trans a7⟩)
    (run_seq scopedRefs_eq scopedSems_eq defs main (fun _ => ops) main_eq (fun _ => ops_sub) m ρ (fun _ => ops_fresh))

end Cert.ReferenceIdeal.Stages

end
-- ==== Proof.RefRow.lean ====
/-
  The reference, read one row at a time.

  The reference computes the same three dense layers on the whole `[500000, 128]` input, each `dot_general` a sum
  of 128 products at every entry, each bias broadcast along the rows; its sigmoid is spelt
  `1 / (1 + e^(-h))`, which is the logistic function; its `log_softmax` takes the row maximum from `-∞`, takes the
  maximum with `-∞` once more (no change), shifts, exponentiates, sums the 64 lanes from zero, takes the logarithm
  and subtracts. Entry `(r, q)` of every stage depends on row `r` of the stage before only, so the result is
  `Mlp.net` of the arguments.
-/
import proofs.«418171_j6356551598698_3_alg».proof.Proof.RefRead
import proofs.«418171_j6356551598698_3_alg».proof.Proof.Mlp
import Idealize.ShloMosaic.PureOps.Ideal.Laws
import Idealize.ShloMosaic.PureOps.IdealRules
import Idealize.ShloMosaic.Lib.ValueIdx

noncomputable section

namespace Cert.ReferenceIdeal.Row

open Cert.ReferenceIdeal Cert.ReferenceIdeal.Gen Cert.ReferenceIdeal.ReadP Idealize.ShloMosaic Idealize.ShloMosaic.ValueIdx
open Cert.Mlp

variable (x0 : (⟨S500000x128, .f32⟩ : BufTy).Contents (Elt Ideal)) (x2 : (⟨S128x128, .f32⟩ : BufTy).Contents (Elt Ideal))
  (x3 : (⟨S128, .f32⟩ : BufTy).Contents (Elt Ideal)) (x4 : (⟨S128x128, .f32⟩ : BufTy).Contents (Elt Ideal))
  (x5 : (⟨S128, .f32⟩ : BufTy).Contents (Elt Ideal)) (x6 : (⟨S128x64, .f32⟩ : BufTy).Contents (Elt Ideal))
  (x7 : (⟨S64, .f32⟩ : BufTy).Contents (Elt Ideal))

/-- A rank-2 index is the pair of its coordinates. -/
theorem idx2_eq {n0 n1 : ℕ} (f : (⟨2, ![n0, n1]⟩ : Shape).Idx) (a : Fin n0) (b : Fin n1) (h0 : (f 0).val = a.val) (h1 : (f 1).val = b.val) :
    f = ix2 a b :=
  funext fun d => Fin.ext (by match d with | ⟨0, _⟩ => exact h0 | ⟨1, _⟩ => exact h1)

/-- A rank-1 index is its coordinate. -/
theorem idx1_eq {n : ℕ} (f : (⟨1, ![n]⟩ : Shape).Idx) (a : Fin n) (h0 : (f 0).val = a.val) : f = ix1 a :=
  funext fun d => Fin.ext (by match d with | ⟨0, _⟩ => exact h0)

/-- The pattern of `1.0` denotes `1`, that of `-∞` denotes `⊥`, that of `0.0` denotes `0`. -/
theorem ofBits_one : Ideal.ofBits .f32 0x3F800000#32 = (1 : EReal) := IdealRules.sign_bit.ideal_onePat .f32
theorem ofBits_neg_inf : Ideal.ofBits .f32 0xFF800000#32 = (⊥ : EReal) := by simp [Ideal.ofBits, Ideal.ieee]

/-! ## The three dense layers -/

theorem layer1_apply (r : Fin 500000) (j : Fin 128) :
    val_main_v3 (F := Ideal) x0 x2 x3 (ix2 r j)
      = dense (fun k => x0 (ix2 r k)) (fun k j => x2 (ix2 k j)) (fun j => x3 (ix1 j)) j := by
  rw [val_main_v3_apply, val_main_v0_apply, val_main_v2_apply, val_main_v1_apply]
  unfold dense
  refine congrArg₂ (· + ·) (Finset.sum_congr rfl fun k _ => ?_) (congrArg x3 (idx1_eq _ j rfl))
  exact congrArg₂ (· * ·) (congrArg x0 (idx2_eq _ r k rfl rfl)) (congrArg x2 (idx2_eq _ k j rfl rfl))

theorem layer2_apply (r : Fin 500000) (j : Fin 128) :
    val_main_v14 (F := Ideal) x0 x2 x3 x4 x5 (ix2 r j)
      = dense (fun k => val_main_v10 (F := Ideal) x0 x2 x3 (ix2 r k)) (fun k j => x4 (ix2 k j)) (fun j => x5 (ix1 j)) j := by
  rw [val_main_v14_apply, val_main_v11_apply, val_main_v13_apply, val_main_v12_apply]
  unfold dense
  refine congrArg₂ (· + ·) (Finset.sum_congr rfl fun k _ => ?_) (congrArg x5 (idx1_eq _ j rfl))
  exact congrArg₂ (· * ·) (congrArg (val_main_v10 (F := Ideal) x0 x2 x3) (idx2_eq _ r k rfl rfl)) (congrArg x4 (idx2_eq _ k j rfl rfl))

theorem layer3_apply (r : Fin 500000) (j : Fin 64) :
    val_main_v25 (F := Ideal) x0 x2 x3 x4 x5 x6 x7 (ix2 r j)
      = dense (fun k => val_main_v21 (F := Ideal) x0 x2 x3 x4 x5 (ix2 r k)) (fun k j => x6 (ix2 k j)) (fun j => x7 (ix1 j)) j := by
  rw [val_main_v25_apply, val_main_v22_apply, val_main_v24_apply, val_main_v23_apply]
  unfold dense
  refine congrArg₂ (· + ·) (Finset.sum_congr rfl fun k _ => ?_) (congrArg x7 (idx1_eq _ j rfl))
  exact congrArg₂ (· * ·) (congrArg (val_main_v21 (F := Ideal) x0 x2 x3 x4 x5) (idx2_eq _ r k rfl rfl)) (congrArg x6 (idx2_eq _ k j rfl rfl))

/-! ## The two activations: `h · (1 / (1 + e^(-h)))` is SiLU -/

theorem silu1_apply (i : S500000x128.Idx) :
    val_main_v10 (F := Ideal) x0 x2 x3 i = silu (val_main_v3 (F := Ideal) x0 x2 x3 i) := by
  rw [val_main_v10_apply, val_main_v9_apply, val_main_v8_apply, val_main_cst_0_apply, val_main_v7_apply, val_main_v6_apply,
    val_main_cst_apply, val_main_v5_apply, val_main_v4_apply]
  show val_main_v3 (F := Ideal) x0 x2 x3 i * Ideal.div (Ideal.ofBits .f32 0x3F800000#32)
      (Ideal.ofBits .f32 0x3F800000#32 + Ideal.exp (-(val_main_v3 (F := Ideal) x0 x2 x3 i))) = _
  rw [ofBits_one]
  rfl

theorem silu2_apply (i : S500000x128.Idx) :
    val_main_v21 (F := Ideal) x0 x2 x3 x4 x5 i = silu (val_main_v14 (F := Ideal) x0 x2 x3 x4 x5 i) := by
  rw [val_main_v21_apply, val_main_v20_apply, val_main_v19_apply, val_main_cst_2_apply, val_main_v18_apply, val_main_v17_apply,
    val_main_cst_1_apply, val_main_v16_apply, val_main_v15_apply]
  show val_main_v14 (F := Ideal) x0 x2 x3 x4 x5 i * Ideal.div (Ideal.ofBits .f32 0x3F800000#32)
      (Ideal.ofBits .f32 0x3F800000#32 + Ideal.exp (-(val_main_v14 (F := Ideal) x0 x2 x3 x4 x5 i))) = _
  rw [ofBits_one]
  rfl

/-! ## `log_softmax` -/

/-- Row `r` with lane `k` put back is `(r, k)`. -/
theorem lift_row (h : S500000x64.Reduces [1] S500000) (r : Fin 500000) (k : Fin (S500000x64.size 1)) :
    h.lift (ix1 r) k = ix2 r (⟨k.val, k.isLt⟩ : Fin 64) := by
  funext a; apply Fin.ext
  match a with
  | ⟨0, _⟩ => rfl
  | ⟨1, _⟩ => rfl

/-- Dropping the lane axis of the logits' shape leaves the rows. -/
theorem reduces_rows : S500000x64.Reduces [1] S500000 := by decide

attribute [local irreducible] Host.reduce in
/-- The maximum-reduction of the logits along the lanes, at row `r`: the fold of `max` from the initial value over the row.
    (The reduction itself, a fold over all 32 million entries, stays folded: only the lemma about it is used.) -/
theorem reduceMax_apply (y : FVec Ideal S500000x64 .f32) (r : Fin 500000) :
    Host.reduce FloatOps.maximumf y (val_main_call0_cst (F := Ideal)) reducesTo_S500000x64_S500000_d1 h_S_ (ix1 r)
      = (Finset.univ : Finset (Fin 64)).fold max (Ideal.ofBits .f32 0xFF800000#32) (y ∘ reduces_rows.lift (ix1 r)) := by
  rw [Host.reduce_eq_fold_single FloatOps.maximumf y _ reducesTo_S500000x64_S500000_d1 reduces_rows h_S_]
  rfl

attribute [local irreducible] Host.reduce in
/-- The row maximum the reference subtracts: the maximum of the row's logits from `-∞`. -/
theorem max_apply (r : Fin 500000) :
    val_main_call0_v2 (F := Ideal) x0 x2 x3 x4 x5 x6 x7 (ix1 r)
      = rowMax fun j : Fin 64 => val_main_v25 (F := Ideal) x0 x2 x3 x4 x5 x6 x7 (ix2 r j) := by
  rw [val_main_call0_v2_apply, val_main_call0_v1_apply, val_main_call0_cst_0_apply]
  show max (Ideal.ofBits .f32 0xFF800000#32) (val_main_call0_v0 (F := Ideal) x0 x2 x3 x4 x5 x6 x7 (ix1 r)) = _
  rw [ofBits_neg_inf, max_bot_left]
  unfold val_main_call0_v0
  refine (reduceMax_apply (val_main_v25 (F := Ideal) x0 x2 x3 x4 x5 x6 x7) r).trans ?_
  rw [ofBits_neg_inf]
  unfold rowMax
  exact congrArg (fun f => Finset.fold max (⊥ : EReal) f (Finset.univ : Finset (Fin 64)))
    (funext fun k => congrArg (val_main_v25 (F := Ideal) x0 x2 x3 x4 x5 x6 x7) (lift_row _ r k))

/-- A logit less its row's maximum. -/
theorem shift_apply (r : Fin 500000) (q : Fin 64) :
    val_main_call0_v5 (F := Ideal) x0 x2 x3 x4 x5 x6 x7 (ix2 r q)
      = val_main_v25 (F := Ideal) x0 x2 x3 x4 x5 x6 x7 (ix2 r q)
        - rowMax fun j : Fin 64 => val_main_v25 (F := Ideal) x0 x2 x3 x4 x5 x6 x7 (ix2 r j) := by
  rw [val_main_call0_v5_apply, val_main_call0_v4_apply, val_main_call0_v3_apply]
  refine congrArg (val_main_v25 (F := Ideal) x0 x2 x3 x4 x5 x6 x7 (ix2 r q) - ·) ?_
  exact (congrArg (val_main_call0_v2 (F := Ideal) x0 x2 x3 x4 x5 x6 x7) (idx1_eq _ r rfl)).trans (max_apply x0 x2 x3 x4 x5 x6 x7 r)

/-- The reference's result at `(r, q)`: `log_softmax` of row `r` of the logits, at `q`. -/
theorem softmax_apply (r : Fin 500000) (q : Fin 64) :
    val_main_v26 (F := Ideal) x0 x2 x3 x4 x5 x6 x7 (ix2 r q)
      = logSoftmax (fun j : Fin 64 => val_main_v25 (F := Ideal) x0 x2 x3 x4 x5 x6 x7 (ix2 r j)) q := by
  rw [val_main_v26_apply, val_main_call0_v10_apply, val_main_call0_v9_apply, val_main_call0_v8_apply, val_main_call0_v7_apply,
    val_main_call0_cst_1_apply, shift_apply]
  unfold logSoftmax
  show _ - Ideal.log (Ideal.ofBits .f32 0x00000000#32 + ∑ k : Fin 64, val_main_call0_v6 (F := Ideal) x0 x2 x3 x4 x5 x6 x7 _) = _
  rw [Ideal.ofBits_zero_f32, zero_add]
  refine congrArg (fun s => val_main_v25 (F := Ideal) x0 x2 x3 x4 x5 x6 x7 (ix2 r q)
    - (rowMax fun j : Fin 64 => val_main_v25 (F := Ideal) x0 x2 x3 x4 x5 x6 x7 (ix2 r j)) - Ideal.log s) ?_
  refine Finset.sum_congr rfl fun k _ => ?_
  rw [val_main_call0_v6_apply]
  show Ideal.exp (val_main_call0_v5 (F := Ideal) x0 x2 x3 x4 x5 x6 x7 _) = _
  refine congrArg Ideal.exp ?_
  exact (congrArg (val_main_call0_v5 (F := Ideal) x0 x2 x3 x4 x5 x6 x7) (idx2_eq _ r k rfl rfl)).trans (shift_apply x0 x2 x3 x4 x5 x6 x7 r k)

/-! ## The whole reference -/

/-- THE REFERENCE'S RESULT is the network of its arguments. -/
theorem ref_eq : val_main_v26 (F := Ideal) x0 x2 x3 x4 x5 x6 x7 = net x0 x2 x3 x4 x5 x6 x7 := by
  funext i
  obtain ⟨r, q, rfl⟩ : ∃ (r : Fin 500000) (q : Fin 64), i = ix2 r q := ⟨i 0, i 1, eq_ix2 i⟩
  rw [softmax_apply]
  unfold net row
  refine congrArg (fun f => logSoftmax f q) (funext fun j => ?_)
  rw [layer3_apply]
  refine congrArg (fun f => dense f _ _ j) (funext fun k => ?_)
  rw [silu2_apply, layer2_apply]
  refine congrArg (fun f => silu (dense f _ _ k)) (funext fun k' => ?_)
  rw [silu1_apply, layer1_apply]

end Cert.ReferenceIdeal.Row

end
-- ==== Proof.lean ====
/-
  A three-layer perceptron with SiLU activations and a final `log_softmax`, computed tile by tile, against the same
  network written with whole-array operations.

  Both programs map an input `x : [500000, 128]` and weights `W0, b0, W1, b1, W2, b2` to
  `log_softmax (silu (silu (x · W0 + b0) · W1 + b1) · W2 + b2)`, row by row (the edge list is never read). The
  kernel works on 50 tiles of 10000 rows, rounding the matrix products' operands to a narrower format (no change
  on extended reals) and using the logistic function for the sigmoid; the reference spells the sigmoid
  `1 / (1 + e^(-h))` and takes one more maximum with `-∞` before shifting the logits. Row `r` of either result is
  `Mlp.row` of row `r` of `x`: for the kernel by reading the body's result on a tile at an index and the tiles as
  blocks of the result array (KernelOps, KernelRow, KernelArray); for the reference by reading its run stage by
  stage (RefRun) and its stages at an index (RefRow). No law beyond the definitions is needed, so the finiteness of
  the inputs is not used. The idealization rewrote nothing, so there is nothing to preserve.
-/
import proofs.«418171_j6356551598698_3_alg».proof.Defs
import proofs.«418171_j6356551598698_3_alg».proof.Proof.Gen.Kernel
import proofs.«418171_j6356551598698_3_alg».proof.Proof.Gen.Kernel.Skeleton
import proofs.«418171_j6356551598698_3_alg».proof.Proof.Gen.Kernel.Launch
import proofs.«418171_j6356551598698_3_alg».proof.Proof.Gen.Kernel.Points
import proofs.«418171_j6356551598698_3_alg».proof.Proof.Gen.Kernel.Frame
import proofs.«418171_j6356551598698_3_alg».proof.Proof.Gen.KernelIdeal
import proofs.«418171_j6356551598698_3_alg».proof.Proof.Gen.KernelIdeal.Skeleton
import proofs.«418171_j6356551598698_3_alg».proof.Proof.Gen.KernelIdeal.Launch
import proofs.«418171_j6356551598698_3_alg».proof.Proof.Gen.KernelIdeal.Points
import proofs.«418171_j6356551598698_3_alg».proof.Proof.Gen.KernelIdeal.Frame
import proofs.«418171_j6356551598698_3_alg».proof.Proof.Gen.KernelIdeal.Value
import proofs.«418171_j6356551598698_3_alg».proof.Proof.Gen.ReferenceIdeal
import proofs.«418171_j6356551598698_3_alg».proof.Proof.Gen.Pre_finite_inputs
import proofs.«418171_j6356551598698_3_alg».proof.Proof.KernelArray
import proofs.«418171_j6356551598698_3_alg».proof.Proof.RefRun
import proofs.«418171_j6356551598698_3_alg».proof.Proof.RefRow
import Idealize.ShloMosaic.Adequacy
import Idealize.ShloMosaic.Init

noncomputable section

namespace Cert.Proof

open Idealize.ShloMosaic Idealize.SL.Sem

/-- The kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Stages.run (F := Ideal) m ρ)

/-- From memories that agree on the arguments both programs end with the network of those arguments in their result:
    the kernel's array is `Mlp.net` of its arguments, the reference's last stage is `Mlp.net` of its own, and the
    arguments agree. -/
theorem algebraic : Cert.algebraic_KernelIdeal_ReferenceIdeal := by
  intro m ρ m' ρ' _ hagree
  refine ⟨fun c => Cert.KernelIdeal.Whole.netOf m c, Cert.KernelIdeal.Whole.run m ρ, ?_⟩
  refine (θ_run Cert.ReferenceIdeal.defs _ _).mono (fun _ h c => ⟨(h c).1.trans ?_, (h c).2⟩)
    (Cert.ReferenceIdeal.Stages.run (F := Ideal) m' ρ')
  obtain ⟨a0, -, a2, a3, a4, a5, a6, a7⟩ := hagree c
  rw [Cert.ReferenceIdeal.Row.ref_eq, a0, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
